-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x224x224x128 : Shape := ⟨4, ![32, 224, 224, 128]⟩
abbrev S_ : Shape := ⟨0, ![]⟩

class Facts : Prop where
  bcast_S_S32x224x224x128 : S_.BroadcastsInDim S32x224x224x128 (![] : Fin 0 → Fin S32x224x224x128.rank)
  reducesTo_S32x224x224x128_S_d0_1_2_3 : S32x224x224x128.ReducesTo [0, 1, 2, 3] S_
  h_S_ : 0 < S_.numel

variable [Facts]

def fn {F : FTy → Type} [FloatOps F] (main_arg0 : FVec F S32x224x224x128 .f32) : IVec S_ 1 :=
  let main_v0 : FVec F S32x224x224x128 .f32 := Host.absf main_arg0
  let main_cst : FVec F S_ .f32 := constant S_ .f32 0x7F800000#32
  let main_v1 : FVec F S32x224x224x128 .f32 := broadcastInDim S32x224x224x128 ![] bcast_S_S32x224x224x128 main_cst
  let main_v2 : IVec S32x224x224x128 1 := cmpf .olt main_v0 main_v1
  let main_c : IVec S_ 1 := constantI S_ 1 1#1
  let main_v3 : IVec S_ 1 := (fun x v => Host.reduce IntOp.andi x v reducesTo_S32x224x224x128_S_d0_1_2_3 h_S_) main_v2 main_c
  main_v3
-- ==== Kernel.lean ====
abbrev S32x224x224x128 : Shape := ⟨4, ![32, 224, 224, 128]⟩
abbrev S32x128 : Shape := ⟨2, ![32, 128]⟩
abbrev S8x16x224x128 : Shape := ⟨4, ![8, 16, 224, 128]⟩
abbrev S8x128 : Shape := ⟨2, ![8, 128]⟩
abbrev S8x16x128 : Shape := ⟨3, ![8, 16, 128]⟩

abbrev nBuf : Space → Nat
  | .hbm => 2
  | .vmem => 4
  | .smem => 0
  | _ => 0

abbrev bufTy : (tb : Table) → Fin (tcTables nBuf tb) → BufTy
  | .hbm, ⟨0, _⟩ => ⟨S32x224x224x128, .f32⟩
  | .hbm, ⟨1, _⟩ => ⟨S32x128, .f32⟩
  | .local _ .vmem, ⟨0, _⟩ => ⟨S8x16x224x128, .f32⟩
  | .local _ .vmem, ⟨1, _⟩ => ⟨S8x16x224x128, .f32⟩
  | .local _ .vmem, ⟨2, _⟩ => ⟨S8x128, .f32⟩
  | .local _ .vmem, ⟨3, _⟩ => ⟨S8x128, .f32⟩
  | _, _ => ⟨S32x224x224x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 14], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x16x224x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

class Facts₀ : Prop where
  inb_S8x128_S8x128_0_0 : ∀ a, (![0, 0] : Fin 2 → Nat) a + S8x128.size a ≤ S8x128.size a
  h_S8x128 : 0 < S8x128.numel
  inb_S8x16x224x128_S8x16x224x128_0_0_0_0 : ∀ a, (![0, 0, 0, 0] : Fin 4 → Nat) a + S8x16x224x128.size a ≤ S8x16x224x128.size a
  h_S8x16x224x128 : 0 < S8x16x224x128.numel
  reduces_S8x16x224x128_S8x16x128 : S8x16x224x128.Reduces [2] S8x16x128
  reduces_S8x16x128_S8x128 : S8x16x128.Reduces [1] S8x128
  shapeCasts_S8x128_S8x128 : S8x128.ShapeCasts S8x128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x16x224x128.size a ≤ S32x224x224x128.size a
  hwx0_0 : ∀ i : grid0.Coords, EltTy.bits .f32 = 32 ∨ (Rect.block (s := S32x224x224x128) S8x16x224x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128.size a ≤ S32x128.size a
  hwx0_1 : ∀ i : grid0.Coords, EltTy.bits .f32 = 32 ∨ (Rect.block (s := S32x128) S8x128.size (cc0_transform_1 i) (hinb0_1 i)).WholeWords (EltTy.packing .f32)

variable [Facts₀]

abbrev win0_0 : Pipeline.Window sig grid0 :=
  Pipeline.Window.ofSpec (Memref.whole main_arg0) S8x16x224x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S32x224x224x128 : Shape := ⟨4, ![32, 224, 224, 128]⟩
abbrev S_ : Shape := ⟨0, ![]⟩
abbrev S32x128 : Shape := ⟨2, ![32, 128]⟩

abbrev nBuf : Space → Nat
  | .hbm => 3
  | .vmem => 0
  | .smem => 0
  | _ => 0

abbrev bufTy : (tb : Table) → Fin (tcTables nBuf tb) → BufTy
  | .hbm, ⟨0, _⟩ => ⟨S32x224x224x128, .f32⟩
  | .hbm, ⟨1, _⟩ => ⟨S_, .f32⟩
  | .hbm, ⟨2, _⟩ => ⟨S32x128, .f32⟩
  | _, _ => ⟨S32x224x224x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  reducesTo_S32x224x224x128_S32x128_d1_2 : S32x224x224x128.ReducesTo [1, 2] S32x128
  h_S_ : 0 < S_.numel

variable [Facts₀]

class Facts : Prop extends Facts₀ where

variable [Facts]
-- ==== Proof.MaxBounds.lean ====
/-
  Upper bounds of maxima over the extended reals.

  Every maximum in this certificate starts from −∞, the bottom of the extended reals, so it is characterised by its
  upper bounds alone: a maximum from −∞ over a finite family lies below a bound `u` exactly when every member of
  the family does.  The lemmas below say this for a fold of `max` over a finite set, for a vector reduction by
  maximum over any axes, for the host's reduction by maximum over any axes, and for a running maximum accumulated
  over consecutive steps.  Two extended reals with the same upper bounds are equal, which is how the two programs'
  results are joined.
-/
import Idealize.ShloMosaic.PureOps.Ideal.Laws
import Idealize.ShloMosaic.Lib.Pipeline.Value

noncomputable section

namespace Cert.MaxBounds

open Idealize.ShloMosaic

/-- The f32 pattern of −∞ denotes the bottom of the extended reals. -/
theorem negInf_eq_bot : Ideal.ofBits .f32 0xFF800000#32 = (⊥ : EReal) := by
  simp [Ideal.ofBits, Ideal.ieee]

/-- A fold of `max` from −∞ over a finite set lies below `u` exactly when every folded value does. -/
theorem fold_max_bot_le {ι : Type} (s : Finset ι) (f : ι → EReal) (u : EReal) :
    s.fold max (⊥ : EReal) f ≤ u ↔ ∀ a ∈ s, f a ≤ u := by
  rw [Finset.fold_max_le]
  exact ⟨fun h => h.2, fun h => ⟨bot_le, h⟩⟩

/-- Two extended reals with the same upper bounds are equal. -/
theorem eq_of_same_upper_bounds {a b : EReal} {P : EReal → Prop} (ha : ∀ u, a ≤ u ↔ P u) (hb : ∀ u, b ≤ u ↔ P u) :
    a = b :=
  le_antisymm ((ha b).mpr ((hb b).mp le_rfl)) ((hb a).mpr ((ha a).mp le_rfl))

/-- A vector reduction by maximum from −∞, at a result index `j`, lies below `u` exactly when every source entry
    whose index drops to `j` does — whatever the reduced axes and the order of the fold. -/
theorem multiReduction_max_le {s t : Shape} {axes : List (Fin s.rank)} (src : FVec Ideal s .f32)
    (h : s.Reduces axes t) (hφ : FKind.Formats .f32)
    (hacc : (0xFF800000#32 : BitVec FTy.f32.bits) = FKind.maximumf.neutral .f32 hφ) (j : t.Idx) (u : EReal) :
    multiReduction .maximumf axes t src 0xFF800000#32 h hφ hacc j ≤ u ↔ ∀ i : s.Idx, h.drop i = j → src i ≤ u := by
  rw [multiReduction_maximumf_eq_fold]
  show (Finset.univ.filter fun i => h.drop i = j).fold max (Ideal.ofBits .f32 0xFF800000#32) src ≤ u ↔ _
  rw [negInf_eq_bot, fold_max_bot_le]
  simp only [Finset.mem_filter, Finset.mem_univ, true_and]

/-- The host's reduction by maximum from a −∞ initial value, at a result index `j`, lies below `u` exactly when
    every operand entry whose index drops to `j` does. -/
theorem hostReduce_max_le {s t z : Shape} {axes : List (Fin s.rank)} (x : s.Idx → Ideal .f32)
    (h : s.ReducesTo axes t) (hz : 0 < z.numel) (j : t.Idx) (u : EReal) :
    Host.reduce FloatOps.maximumf x (constant (F := Ideal) z .f32 0xFF800000#32) h hz j ≤ u
      ↔ ∀ i : s.Idx, h.drop i = j → x i ≤ u := by
  rw [Host.reduce_eq_fold]
  show (Finset.univ.filter fun i => h.drop i = j).fold max (Ideal.ofBits .f32 0xFF800000#32) x ≤ u ↔ _
  rw [negInf_eq_bot, fold_max_bot_le]
  simp only [Finset.mem_filter, Finset.mem_univ, true_and]

/-- A running maximum: if the first step's value at `y` has the upper bounds `P n`, and every later step takes the
    maximum of what came before with a value whose upper bounds are `P n`, then after `j` further steps from `b`
    the value at `y` lies below `u` exactly when `P (b + j') y u` holds at every step `j' ≤ j`. -/
theorem accAt_le_iff {N : ℕ} {ι : Type} (a : (n : ℕ) → n < N → ι → EReal)
    (g : (n : ℕ) → n < N → (ι → EReal) → ι → EReal) (P : (n : ℕ) → n < N → ι → EReal → Prop)
    (ha : ∀ n h y u, a n h y ≤ u ↔ P n h y u)
    (hg : ∀ n h acc y u, g n h acc y ≤ u ↔ acc y ≤ u ∧ P n h y u) (b : ℕ) :
    ∀ (j : ℕ) (h : b + j < N) (y : ι) (u : EReal),
      Pipeline.accAt a g b j h y ≤ u ↔ ∀ (j' : ℕ) (hj : j' ≤ j), P (b + j') (by omega) y u
  | 0, h, y, u => by
      rw [Pipeline.accAt_zero, ha]
      constructor
      · intro hp j' hj
        obtain rfl : j' = 0 := by omega
        exact hp
      · intro hp
        exact hp 0 le_rfl
  | j + 1, h, y, u => by
      rw [Pipeline.accAt_succ, hg, accAt_le_iff a g P ha hg b j (Nat.lt_of_succ_lt h) y u]
      constructor
      · rintro ⟨h1, h2⟩ j' hj
        rcases Nat.lt_or_eq_of_le hj with hlt | rfl
        · exact h1 j' (by omega)
        · exact h2
      · intro hp
        exact ⟨fun j' hj => hp j' (by omega), hp (j + 1) le_rfl⟩

end Cert.MaxBounds

end
-- ==== Proof.KernelMax.lean ====
/-
  The pooling kernel's result, by its upper bounds.

  The kernel walks a grid of 4 × 14 points.  Point (bi, hi) holds the block of the input made of batches
  8·bi … 8·bi + 7 and rows 16·hi … 16·hi + 15 (all 224 columns, all 128 channels); it takes the block's maximum
  over the columns, then over the 16 rows, and folds the result into an 8 × 128 accumulator that starts from −∞
  at hi = 0 and is written back after hi = 13.  So the accumulator entry for batch `b` and channel `ch` after a
  whole run of 14 points is the maximum from −∞ of input[b, h, w, ch] over all 224 rows `h` and 224 columns `w`:
  each row `h` is met exactly once, at the point hi = h / 16, as the block's row h mod 16.  This is stated through
  upper bounds: the entry lies below `u` exactly when every input[b, h, w, ch] does.
-/
import proofs.«105074_j54056458387499_1_alg».proof.Proof.Gen.KernelIdeal.Value
import proofs.«105074_j54056458387499_1_alg».proof.Proof.MaxBounds
import Idealize.ShloMosaic.Lib.ValueIdx

noncomputable section

namespace Cert.KernelIdeal.PoolValue

open Cert.KernelIdeal Cert.KernelIdeal.Gen Cert.KernelIdeal.Value
open Idealize.ShloMosaic Idealize.ShloMosaic.TcCoe Idealize.SL.Sem Idealize.ShloMosaic.ValueIdx Cert.MaxBounds

/-! ## One point's contribution -/

/-- Dropping the column axis and then the row axis of a block index keeps its batch coordinate … -/
theorem drop_drop_batch (z : S8x16x224x128.Idx) :
    ((reduces_S8x16x128_S8x128.drop (reduces_S8x16x224x128_S8x16x128.drop z)) 0).val = (z 0).val :=
  (reduces_S8x16x128_S8x128.drop_apply_val_of_eq _ 0 0).trans (reduces_S8x16x224x128_S8x16x128.drop_apply_val_of_eq z 0 0)

/-- … and its channel coordinate. -/
theorem drop_drop_channel (z : S8x16x224x128.Idx) :
    ((reduces_S8x16x128_S8x128.drop (reduces_S8x16x224x128_S8x16x128.drop z)) 1).val = (z 3).val :=
  (reduces_S8x16x128_S8x128.drop_apply_val_of_eq _ 1 2).trans (reduces_S8x16x224x128_S8x16x128.drop_apply_val_of_eq z 2 3)

/-- The accumulator's initial value is −∞ everywhere. -/
theorem init_apply (y : S8x128.Idx) : k0_pay1 (F := Ideal) y = (⊥ : EReal) := by
  unfold k0_pay1
  exact negInf_eq_bot

/-- One point's update, at the accumulator entry `y` = (batch, channel): the new entry lies below `u` exactly when
    the old entry does and so does every entry of the point's block with that batch and channel. -/
theorem update_le (x0 : Vec Ideal S8x16x224x128 .f32) (acc : Vec Ideal S8x128 .f32) (y : S8x128.Idx) (u : EReal) :
    k0_pay2 (F := Ideal) x0 acc y ≤ u ↔
      acc y ≤ u ∧ ∀ z : S8x16x224x128.Idx, (z 0).val = (y 0).val → (z 3).val = (y 1).val → x0 z ≤ u := by
  unfold k0_pay2
  dsimp only
  show max ((shapeCast S8x128 acc shapeCasts_S8x128_S8x128 y : EReal))
      ((multiReduction (F := Ideal) (φ := .f32) .maximumf [1] S8x128
        (multiReduction (F := Ideal) (φ := .f32) .maximumf [2] S8x16x128 x0 0xFF800000#32 reduces_S8x16x224x128_S8x16x128 _ _)
        0xFF800000#32 reduces_S8x16x128_S8x128 _ _ y : EReal)) ≤ u ↔ _
  rw [max_le_iff, shapeCast_self]
  refine and_congr Iff.rfl ?_
  refine (multiReduction_max_le _ _ _ _ _ _).trans ?_
  constructor
  · intro h z h0 h3
    have hz := h (reduces_S8x16x224x128_S8x16x128.drop z) (by
      funext b
      apply Fin.ext
      match b with
      | ⟨0, _⟩ => exact (drop_drop_batch z).trans h0
      | ⟨1, _⟩ => exact (drop_drop_channel z).trans h3)
    exact (multiReduction_max_le _ _ _ _ _ _).mp hz z rfl
  · intro h r hr
    refine (multiReduction_max_le _ _ _ _ _ _).mpr ?_
    intro z hz
    subst hz
    subst hr
    exact h z (drop_drop_batch z).symm (drop_drop_channel z).symm

/-! ## A whole run of fourteen points -/

variable (m : (ℓ : Loc nD τ sig) → Buf (Elt Ideal) ℓ)

/-- The input array, as the kernel's launch finds it. -/
abbrev inArr (c : Dev nD) : S32x224x224x128.Idx → EReal := m ((c : Thread nD τ).loc main_arg0)

/-- The output array after the kernel's run (the generated value leg's closed form). -/
abbrev outArr (c : Dev nD) : S32x128.Idx → EReal := G1 (F := Ideal) m c

/-- The input's block at grid point `n`, as an 8 × 16 × 224 × 128 array. -/
abbrev blockAt (c : Dev nD) (n : ℕ) (h : n < cfg0.N) : Vec Ideal S8x16x224x128 .f32 := iblk m c 0 ⟨n, h⟩

/-- Where the block at point `n` sits in the input: the entry `z` of the block is the input's entry at this index. -/
abbrev posAt (n : ℕ) (h : n < cfg0.N) (z : S8x16x224x128.Idx) : S32x224x224x128.Idx :=
  ((cfg0.win 0).blk ⟨n, h⟩).view.emb z

theorem blockAt_apply (c : Dev nD) (n : ℕ) (h : n < cfg0.N) (z : S8x16x224x128.Idx) :
    blockAt m c n h z = inArr m c (posAt n h z) := rfl

/-- The input window's printed index map, decided over the grid: point `t` holds batch block t / 14 and row block
    t mod 14, and the whole extent of the column and channel axes. -/
theorem in_idx_facts : ∀ t : Fin cfg0.N, win0_0.index t (0 : Fin 4) = t.val / 14 ∧ win0_0.index t (1 : Fin 4) = t.val % 14
    ∧ win0_0.index t (2 : Fin 4) = 0 ∧ win0_0.index t (3 : Fin 4) = 0 :=
  (by decide +kernel : ∀ t : Fin grid0.N, _)

/-- The coordinates of a block entry's place in the input: batch 8·(n / 14) + z₀, row 16·(n mod 14) + z₁, column z₂,
    channel z₃. -/
theorem posAt_val (n : ℕ) (h : n < cfg0.N) (z : S8x16x224x128.Idx) :
    (posAt n h z 0).val = n / 14 * 8 + (z 0).val ∧ (posAt n h z 1).val = n % 14 * 16 + (z 1).val
      ∧ (posAt n h z 2).val = (z 2).val ∧ (posAt n h z 3).val = (z 3).val := by
  obtain ⟨e0, e1, e2, e3⟩ := in_idx_facts ⟨n, h⟩
  have p0 : (posAt n h z 0).val = win0_0.index ⟨n, h⟩ (0 : Fin 4) * 8 + 1 * (z 0).val := rfl
  have p1 : (posAt n h z 1).val = win0_0.index ⟨n, h⟩ (1 : Fin 4) * 16 + 1 * (z 1).val := rfl
  have p2 : (posAt n h z 2).val = win0_0.index ⟨n, h⟩ (2 : Fin 4) * 224 + 1 * (z 2).val := rfl
  have p3 : (posAt n h z 3).val = win0_0.index ⟨n, h⟩ (3 : Fin 4) * 128 + 1 * (z 3).val := rfl
  rw [p0, p1, p2, p3, e0, e1, e2, e3]
  dsimp only
  omega

/-- THE KERNEL'S RESULT at `i` = (batch, channel) lies below `u` exactly when every input entry with that batch and
    channel does.  The run that writes `i`'s block is run i₀ / 8; row `h` of the input is met at its point h / 16. -/
theorem kernel_le (c : Dev nD) (i : S32x128.Idx) (u : EReal) :
    outArr m c i ≤ u ↔
      ∀ k : S32x224x224x128.Idx, (k 0).val = (i 0).val → (k 3).val = (i 1).val → inArr m c k ≤ u := by
  have hi0 : (i 0).val < 32 := (i 0).isLt
  have hi1 : (i 1).val < 128 := (i 1).isLt
  have hN : cfg0.N = 56 := N_0
  have hr : run1Of i = (i 0).val / 8 := by
    show 1 * ((i 0).val / 8 - 0) + 1 * ((i 1).val / 128 - 0) = _
    omega
  have hlt : 14 * run1Of i + 13 < cfg0.N := by rw [hr, hN]; omega
  have hl0 : (loc1Of i 0).val = (i 0).val % 8 := rfl
  have hl1 : (loc1Of i 1).val = (i 1).val % 128 := rfl
  unfold outArr G1
  rw [dif_pos hlt]
  refine (accAt_le_iff (reset1 m c) (step1 m c)
    (fun n h y u => ∀ z : S8x16x224x128.Idx, (z 0).val = (y 0).val → (z 3).val = (y 1).val → blockAt m c n h z ≤ u)
    (fun n h y u => ?_) (fun n h acc y u => ?_) (14 * run1Of i) 13 hlt (loc1Of i) u).trans ?_
  · unfold reset1
    refine (update_le _ _ _ _).trans ?_
    rw [init_apply]
    exact and_iff_right bot_le
  · unfold step1
    exact update_le _ _ _ _
  · constructor
    · intro hp k hk0 hk3
      have hk1 : (k 1).val < 224 := (k 1).isLt
      have hk2 : (k 2).val < 224 := (k 2).isLt
      have hb := hp ((k 1).val / 16) (by omega)
        (ix4 (⟨(k 0).val % 8, by omega⟩ : Fin 8) (⟨(k 1).val % 16, by omega⟩ : Fin 16) (⟨(k 2).val, hk2⟩ : Fin 224)
          (⟨(k 3).val, by omega⟩ : Fin 128))
        (by rw [hl0]; show (k 0).val % 8 = _; omega) (by rw [hl1]; show (k 3).val = _; omega)
      rw [blockAt_apply] at hb
      have hpos : posAt (14 * run1Of i + (k 1).val / 16) (by omega)
          (ix4 (⟨(k 0).val % 8, by omega⟩ : Fin 8) (⟨(k 1).val % 16, by omega⟩ : Fin 16) (⟨(k 2).val, hk2⟩ : Fin 224)
            (⟨(k 3).val, by omega⟩ : Fin 128)) = k := by
        obtain ⟨q0, q1, q2, q3⟩ := posAt_val (14 * run1Of i + (k 1).val / 16) (by omega)
          (ix4 (⟨(k 0).val % 8, by omega⟩ : Fin 8) (⟨(k 1).val % 16, by omega⟩ : Fin 16) (⟨(k 2).val, hk2⟩ : Fin 224)
            (⟨(k 3).val, by omega⟩ : Fin 128))
        funext a
        apply Fin.ext
        match a with
        | ⟨0, _⟩ => exact q0.trans (by show _ + (k 0).val % 8 = (k 0).val; rw [hr]; omega)
        | ⟨1, _⟩ => exact q1.trans (by show _ + (k 1).val % 16 = (k 1).val; omega)
        | ⟨2, _⟩ => exact q2
        | ⟨3, _⟩ => exact q3
      rwa [hpos] at hb
    · intro hk j' hj z hz0 hz3
      rw [blockAt_apply]
      obtain ⟨q0, q1, q2, q3⟩ := posAt_val (14 * run1Of i + j') (by omega) z
      have hz0' : (z 0).val < 8 := (z 0).isLt
      refine hk _ ?_ ?_
      · rw [q0, hz0, hl0, hr]; omega
      · rw [q3, hz3, hl1]; omega

end Cert.KernelIdeal.PoolValue

end
-- ==== Proof.ReferenceMax.lean ====
/-
  The reference's result, by its upper bounds.

  The reference is one reduction by maximum, from −∞, of the whole input over its row and column axes.  Its entry
  for batch `b` and channel `ch` therefore lies below a bound `u` exactly when every input[b, h, w, ch] does: the
  operand indices that the reduction sends to (b, ch) are those whose first coordinate is `b` and whose last is `ch`.
-/
import proofs.«105074_j54056458387499_1_alg».proof.Proof.Gen.ReferenceIdeal.Run
import proofs.«105074_j54056458387499_1_alg».proof.Proof.MaxBounds

noncomputable section

namespace Cert.ReferenceIdeal.PoolValue

open Cert.ReferenceIdeal Cert.ReferenceIdeal.Gen Idealize.ShloMosaic Cert.MaxBounds

/-- The reduction keeps the batch axis as its first result axis … -/
theorem drop_batch (k : S32x224x224x128.Idx) :
    ((reducesTo_S32x224x224x128_S32x128_d1_2.drop k) 0).val = (k 0).val :=
  reducesTo_S32x224x224x128_S32x128_d1_2.drop_apply_val_of_eq k 0 0

/-- … and the channel axis as its second. -/
theorem drop_channel (k : S32x224x224x128.Idx) :
    ((reducesTo_S32x224x224x128_S32x128_d1_2.drop k) 1).val = (k 3).val :=
  reducesTo_S32x224x224x128_S32x128_d1_2.drop_apply_val_of_eq k 1 3

/-- The reference's entry at `i` = (batch, channel) lies below `u` exactly when every input entry with that batch and
    channel does. -/
theorem reference_le (x : S32x224x224x128.Idx → Ideal .f32) (i : S32x128.Idx) (u : EReal) :
    Host.reduce FloatOps.maximumf x (constant (F := Ideal) S_ .f32 0xFF800000#32)
        reducesTo_S32x224x224x128_S32x128_d1_2 h_S_ i ≤ u
      ↔ ∀ k : S32x224x224x128.Idx, (k 0).val = (i 0).val → (k 3).val = (i 1).val → x k ≤ u := by
  rw [hostReduce_max_le]
  constructor
  · intro h k h0 h3
    refine h k ?_
    funext b
    apply Fin.ext
    match b with
    | ⟨0, _⟩ => exact (drop_batch k).trans h0
    | ⟨1, _⟩ => exact (drop_channel k).trans h3
  · intro h k hk
    subst hk
    exact h k (drop_batch k).symm (drop_channel k).symm

end Cert.ReferenceIdeal.PoolValue

end
-- ==== Proof.lean ====
/-
  Max pooling over rows and columns: out[b, ch] = max over (h, w) of input[b, h, w, ch], for an input of
  32 × 224 × 224 × 128 extended reals.

  The kernel computes it block by block: for each of 4 batch blocks it walks 14 row blocks, takes each block's
  maximum over its columns and then over its 16 rows, and folds that into an accumulator started at −∞.  The
  reference is one reduction by maximum, from −∞, over the row and column axes.  Over the extended reals `max` is
  the lattice join and −∞ its bottom, so either result is determined by its upper bounds, and both have the same
  ones: the entry for (b, ch) lies below `u` exactly when every input[b, h, w, ch] does (Proof/KernelMax.lean for
  the kernel, Proof/ReferenceMax.lean for the reference, over Proof/MaxBounds.lean).  No arithmetic enters, so the
  inputs' finiteness is never used.  The kernel's idealization rewrites nothing, so that conjunct is trivial; the
  three frame conjuncts are the programs' runs with the result dropped.
-/
import proofs.«105074_j54056458387499_1_alg».proof.Defs
import proofs.«105074_j54056458387499_1_alg».proof.Proof.Gen.Kernel.Frame
import proofs.«105074_j54056458387499_1_alg».proof.Proof.Gen.KernelIdeal.Value
import proofs.«105074_j54056458387499_1_alg».proof.Proof.Gen.Pre_finite_inputs
import proofs.«105074_j54056458387499_1_alg».proof.Proof.Gen.ReferenceIdeal.Run
import proofs.«105074_j54056458387499_1_alg».proof.Proof.KernelMax
import proofs.«105074_j54056458387499_1_alg».proof.Proof.ReferenceMax
import Idealize.ShloMosaic.Adequacy
import Idealize.ShloMosaic.Init

noncomputable section

namespace Cert.Proof

open Idealize.ShloMosaic Idealize.SL.Sem

theorem frame_KernelIdeal : frame_KernelIdeal := fun m ρ _ =>
  (θ_run Cert.KernelIdeal.defs _ _).mono (fun _ h c => (h c).2) (Cert.KernelIdeal.Value.run (F := Ideal) m ρ)

theorem frame_ReferenceIdeal : frame_ReferenceIdeal := fun m ρ _ =>
  (θ_run Cert.ReferenceIdeal.defs _ _).mono (fun _ h c => (h c).2) (Cert.ReferenceIdeal.Value.run (F := Ideal) m ρ)

/-- From memories agreeing on the input, the kernel's output array and the reference's are equal entry by entry:
    each entry is a maximum from −∞ with the same upper bounds. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [hagree c]
  funext i
  exact Cert.MaxBounds.eq_of_same_upper_bounds
    (fun u => Cert.ReferenceIdeal.PoolValue.reference_le _ i u)
    (fun u => Cert.KernelIdeal.PoolValue.kernel_le m c i u)

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
